-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x512x3 : Shape := ⟨4, ![32, 512, 512, 3]⟩
abbrev S3x3 : Shape := ⟨2, ![3, 3]⟩
abbrev S_ : Shape := ⟨0, ![]⟩

class Facts : Prop where
  bcast_S_S32x512x512x3 : S_.BroadcastsInDim S32x512x512x3 (![] : Fin 0 → Fin S32x512x512x3.rank)
  reducesTo_S32x512x512x3_S_d0_1_2_3 : S32x512x512x3.ReducesTo [0, 1, 2, 3] S_
  h_S_ : 0 < S_.numel
  bcast_S_S3x3 : S_.BroadcastsInDim S3x3 (![] : Fin 0 → Fin S3x3.rank)
  reducesTo_S3x3_S_d0_1 : S3x3.ReducesTo [0, 1] S_

variable [Facts]

def fn {F : FTy → Type} [FloatOps F] (main_arg0 : FVec F S32x512x512x3 .f32) (main_arg1 : FVec F S3x3 .f32) : IVec S_ 1 :=
  let main_v0 : FVec F S32x512x512x3 .f32 := Host.absf main_arg0
  let main_cst : FVec F S_ .f32 := constant S_ .f32 0x7F800000#32
  let main_v1 : FVec F S32x512x512x3 .f32 := broadcastInDim S32x512x512x3 ![] bcast_S_S32x512x512x3 main_cst
  let main_v2 : IVec S32x512x512x3 1 := cmpf .olt main_v0 main_v1
  let main_c : IVec S_ 1 := constantI S_ 1 1#1
  let main_v3 : IVec S_ 1 := (fun x v => Host.reduce IntOp.andi x v reducesTo_S32x512x512x3_S_d0_1_2_3 h_S_) main_v2 main_c
  let main_v4 : FVec F S3x3 .f32 := Host.absf main_arg1
  let main_cst_0 : FVec F S_ .f32 := constant S_ .f32 0x7F800000#32
  let main_v5 : FVec F S3x3 .f32 := broadcastInDim S3x3 ![] bcast_S_S3x3 main_cst_0
  let main_v6 : IVec S3x3 1 := cmpf .olt main_v4 main_v5
  let main_c_1 : IVec S_ 1 := constantI S_ 1 1#1
  let main_v7 : IVec S_ 1 := (fun x v => Host.reduce IntOp.andi x v reducesTo_S3x3_S_d0_1 h_S_) main_v6 main_c_1
  let main_v8 : IVec S_ 1 := andi main_v3 main_v7
  main_v8
-- ==== Kernel.lean ====
abbrev S32x512x512x3 : Shape := ⟨4, ![32, 512, 512, 3]⟩
abbrev S3x3 : Shape := ⟨2, ![3, 3]⟩
abbrev S16384x512x3 : Shape := ⟨3, ![16384, 512, 3]⟩
abbrev S32x512x3 : Shape := ⟨3, ![32, 512, 3]⟩
abbrev S32x512x1 : Shape := ⟨3, ![32, 512, 1]⟩
abbrev S32x512 : Shape := ⟨2, ![32, 512]⟩
abbrev S1x1 : Shape := ⟨2, ![1, 1]⟩

abbrev nBuf : Space → Nat
  | .hbm => 5
  | .vmem => 5
  | .smem => 0
  | _ => 0

abbrev bufTy : (tb : Table) → Fin (tcTables nBuf tb) → BufTy
  | .hbm, ⟨0, _⟩ => ⟨S32x512x512x3, .f32⟩
  | .hbm, ⟨1, _⟩ => ⟨S3x3, .f32⟩
  | .hbm, ⟨2, _⟩ => ⟨S16384x512x3, .f32⟩
  | .hbm, ⟨3, _⟩ => ⟨S16384x512x3, .f32⟩
  | .hbm, ⟨4, _⟩ => ⟨S32x512x512x3, .f32⟩
  | .local _ .vmem, ⟨0, _⟩ => ⟨S32x512x3, .f32⟩
  | .local _ .vmem, ⟨1, _⟩ => ⟨S32x512x3, .f32⟩
  | .local _ .vmem, ⟨2, _⟩ => ⟨S3x3, .f32⟩
  | .local _ .vmem, ⟨3, _⟩ => ⟨S32x512x3, .f32⟩
  | .local _ .vmem, ⟨4, _⟩ => ⟨S32x512x3, .f32⟩
  | _, _ => ⟨S32x512x512x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![512], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S32x512x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S32x512x512x3_S16384x512x3 : S32x512x512x3.ShapeCasts S16384x512x3
  inb_S32x512x3_S32x512x3_0_0_0 : ∀ a, (![0, 0, 0] : Fin 3 → Nat) a + S32x512x3.size a ≤ S32x512x3.size a
  h_S32x512x3 : 0 < S32x512x3.numel
  shapeCasts_S32x512x3_S32x512x3 : S32x512x3.ShapeCasts S32x512x3
  inb_S3x3_S3x3_0_0 : ∀ a, (![0, 0] : Fin 2 → Nat) a + S3x3.size a ≤ S3x3.size a
  h_S3x3 : 0 < S3x3.numel
  slices_S32x512x3_o0_0_0_S32x512x1 : S32x512x3.Slices ![0, 0, 0] S32x512x1
  shapeCasts_S32x512x1_S32x512 : S32x512x1.ShapeCasts S32x512
  slices_S32x512x3_o0_0_1_S32x512x1 : S32x512x3.Slices ![0, 0, 1] S32x512x1
  slices_S32x512x3_o0_0_2_S32x512x1 : S32x512x3.Slices ![0, 0, 2] S32x512x1
  slices_S3x3_o0_0_S1x1 : S3x3.Slices ![0, 0] S1x1
  inpos_S1x1_p0_0 : ∀ a, (![0, 0] : Fin 2 → Nat) a < S1x1.size a
  slices_S3x3_o0_1_S1x1 : S3x3.Slices ![0, 1] S1x1
  slices_S3x3_o0_2_S1x1 : S3x3.Slices ![0, 2] S1x1
  slices_S3x3_o1_0_S1x1 : S3x3.Slices ![1, 0] S1x1
  slices_S3x3_o1_1_S1x1 : S3x3.Slices ![1, 1] S1x1
  slices_S3x3_o1_2_S1x1 : S3x3.Slices ![1, 2] S1x1
  slices_S3x3_o2_0_S1x1 : S3x3.Slices ![2, 0] S1x1
  slices_S3x3_o2_1_S1x1 : S3x3.Slices ![2, 1] S1x1
  slices_S3x3_o2_2_S1x1 : S3x3.Slices ![2, 2] S1x1
  inb_S32x512x3_S32x512x1_0_0_0 : ∀ a, (![0, 0, 0] : Fin 3 → Nat) a + S32x512x1.size a ≤ S32x512x3.size a
  h_S32x512x1 : 0 < S32x512x1.numel
  shapeCasts_S32x512_S32x512x1 : S32x512.ShapeCasts S32x512x1
  inb_S32x512x3_S32x512x1_0_0_1 : ∀ a, (![0, 0, 1] : Fin 3 → Nat) a + S32x512x1.size a ≤ S32x512x3.size a
  inb_S32x512x3_S32x512x1_0_0_2 : ∀ a, (![0, 0, 2] : Fin 3 → Nat) a + S32x512x1.size a ≤ S32x512x3.size a
  shapeCasts_S16384x512x3_S32x512x512x3 : S16384x512x3.ShapeCasts S32x512x512x3
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x512x3.size a ≤ S16384x512x3.size a
  hwx0_0 : ∀ i : grid0.Coords, EltTy.bits .f32 = 32 ∨ (Rect.block (s := S16384x512x3) S32x512x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x3.size a ≤ S3x3.size a
  hwx0_1 : ∀ i : grid0.Coords, EltTy.bits .f32 = 32 ∨ (Rect.block (s := S3x3) S3x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x512x3.size a ≤ S16384x512x3.size a
  hwx0_2 : ∀ i : grid0.Coords, EltTy.bits .f32 = 32 ∨ (Rect.block (s := S16384x512x3) S32x512x3.size (cc0_transform_2 i) (hinb0_2 i)).WholeWords (EltTy.packing .f32)

variable [Facts₀]

abbrev win0_0 : Pipeline.Window sig grid0 :=
  Pipeline.Window.ofSpec (Memref.whole main_v0) S32x512x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S3x3.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S32x512x3.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x512x512x3 : Shape := ⟨4, ![32, 512, 512, 3]⟩
abbrev S3x3 : Shape := ⟨2, ![3, 3]⟩

abbrev nBuf : Space → Nat
  | .hbm => 3
  | .vmem => 0
  | .smem => 0
  | _ => 0

abbrev bufTy : (tb : Table) → Fin (tcTables nBuf tb) → BufTy
  | .hbm, ⟨0, _⟩ => ⟨S32x512x512x3, .f32⟩
  | .hbm, ⟨1, _⟩ => ⟨S3x3, .f32⟩
  | .hbm, ⟨2, _⟩ => ⟨S32x512x512x3, .f32⟩
  | _, _ => ⟨S32x512x512x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S32x512x512x3_S3x3_S32x512x512x3_3_0_012_1_n_n_wf : DotDims.WF S32x512x512x3 S3x3 S32x512x512x3 [3] [0] [0, 1, 2] [1] [] []

variable [Facts₀]

def dot_S32x512x512x3_S3x3_S32x512x512x3_3_0_012_1_n_n : DotDims S32x512x512x3 S3x3 S32x512x512x3 where
  lhsContracting := [3]
  rhsContracting := [0]
  lhsNonContracting := [0, 1, 2]
  rhsNonContracting := [1]
  lhsBatch := []
  rhsBatch := []
  wf := dot_S32x512x512x3_S3x3_S32x512x512x3_3_0_012_1_n_n_wf

class Facts : Prop extends Facts₀ where

variable [Facts]
-- ==== Proof.PixelMix.lean ====
/-
  The colour transform as one function of the arrays, on the extended reals.

  A pixel has three channels x₀, x₁, x₂. The transform multiplies the row vector (x₀, x₁, x₂) by a 3×3 matrix w:
  output channel d is x₀·w₀d + x₁·w₁d + x₂·w₂d. One side forms it as the chain (x₀·w₀d + x₁·w₁d) + x₂·w₂d, the other
  contracts the channel axis: the sum over k of x_k·w_kd. Addition of extended reals is one commutative monoid
  operation, so a sum over three indices IS that chain (`mixAt_eq_sum`): no hypothesis on the values is needed, not
  even finiteness.

  The image is stored [32, 512, 512, 3] = [batch, row, column, channel]; read as rows of pixels it is
  [32·512, 512, 3]. A row-major reshape keeps a pixel's three channels together: pixel (b, h, c) of the image is
  pixel (512·b + h, c) of the rows. So reshaping in, transforming the rows and reshaping out is the transform of the
  image (`reshape_mixRows`).
-/
import Idealize.ShloMosaic.PureOps.Ideal
import Idealize.ShloMosaic.Lib.ValueIdx
import Idealize.ShloMosaic.Lib.Pipeline.Value

noncomputable section

namespace Cert.PixelMix

open Idealize.ShloMosaic Idealize.ShloMosaic.ValueIdx

/-- The 3×3 matrix's shape. -/
abbrev Mat3 : Shape := ⟨2, ![3, 3]⟩
/-- The image, [batch, row, column, channel]. -/
abbrev Img : Shape := ⟨4, ![32, 512, 512, 3]⟩
/-- The same pixels as rows, [batch·row, column, channel]. -/
abbrev Rows : Shape := ⟨3, ![16384, 512, 3]⟩

/-- One pixel: output channel `d` of the channels `x` under the matrix `w`, as a chain of two additions. -/
def mixAt (x : Fin 3 → EReal) (w : Mat3.Idx → EReal) (d : Fin 3) : EReal :=
  (x 0 * w (ix2 0 d) + x 1 * w (ix2 1 d)) + x 2 * w (ix2 2 d)

/-- The chain is the contraction over the channel axis. -/
theorem mixAt_eq_sum (x : Fin 3 → EReal) (w : Mat3.Idx → EReal) (d : Fin 3) :
    mixAt x w d = ∑ k : Fin 3, x k * w (ix2 k d) := by
  rw [Fin.sum_univ_three]; rfl

/-- The transform on rows of pixels [R, C, 3]: entry (r, c, d) mixes the three channels of pixel (r, c). -/
def mixRows {R C : Nat} (x : (⟨3, ![R, C, 3]⟩ : Shape).Idx → EReal) (w : Mat3.Idx → EReal) :
    (⟨3, ![R, C, 3]⟩ : Shape).Idx → EReal :=
  fun i => mixAt (fun k => x (ix3 (i 0) (i 1) k)) w (i 2)

/-- The transform on the image: entry (b, h, c, d) mixes the three channels of pixel (b, h, c). -/
def mixImage (x : Img.Idx → EReal) (w : Mat3.Idx → EReal) : Img.Idx → EReal :=
  fun i => mixAt (fun k => x (ix4 (i 0) (i 1) (i 2) k)) w (i 3)

theorem mixRows_apply {R C : Nat} (x : (⟨3, ![R, C, 3]⟩ : Shape).Idx → EReal) (w : Mat3.Idx → EReal)
    (r : Fin R) (c : Fin C) (d : Fin 3) :
    mixRows x w (ix3 r c d) = mixAt (fun k => x (ix3 r c k)) w d := rfl

theorem mixImage_apply (x : Img.Idx → EReal) (w : Mat3.Idx → EReal) (b : Fin 32) (h : Fin 512) (c : Fin 512) (d : Fin 3) :
    mixImage x w (ix4 b h c d) = mixAt (fun k => x (ix4 b h c k)) w d := rfl

/-- Pixel (b, h, c) of the image is pixel (512·b + h, c) of the rows, channel by channel: the two row-major
    positions are ((512·b + h)·512 + c)·3 + k on both sides. -/
theorem rows_of_image (x : Img.Idx → EReal) (hin : Img.ShapeCasts Rows) (b : Fin 32) (h : Fin 512) (c : Fin 512)
    (k : Fin 3) (hr : b.val * 512 + h.val < 16384) :
    shapeCast Rows x hin (ix3 ⟨b.val * 512 + h.val, hr⟩ c k) = x (ix4 b h c k) :=
  shapeCast_apply x hin _ _ (by rw [Shape.rowMajor_val_three, Shape.rowMajor_val_four]; rfl)

/-- Reshaping the image to rows, transforming the rows and reshaping back is the transform of the image. -/
theorem reshape_mixRows (x : Img.Idx → EReal) (w : Mat3.Idx → EReal) (hin : Img.ShapeCasts Rows)
    (hout : Rows.ShapeCasts Img) :
    shapeCast Img (mixRows (shapeCast Rows x hin) w) hout = mixImage x w := by
  funext i
  obtain ⟨b, h, c, d, rfl⟩ : ∃ (b : Fin 32) (h : Fin 512) (c : Fin 512) (d : Fin 3), i = ix4 b h c d :=
    ⟨i 0, i 1, i 2, i 3, eq_ix4 i⟩
  have hr : b.val * 512 + h.val < 16384 := by omega
  refine (shapeCast_apply _ hout (ix4 b h c d) (ix3 ⟨b.val * 512 + h.val, hr⟩ c d) (by
    rw [Shape.rowMajor_val_three, Shape.rowMajor_val_four]; rfl)).trans ?_
  rw [mixRows_apply, mixImage_apply]
  congr 1
  funext k
  exact rows_of_image x hin b h c k hr

end Cert.PixelMix

end
-- ==== Proof.BlockMix.lean ====
/-
  What one grid point leaves in the output block: the colour transform of its block of pixels.

  The body reads a block of 32 rows of 512 pixels, [32, 512, 3], and the whole 3×3 matrix. It takes the three channel
  planes [32, 512] apart (a slice of one channel, then the unit channel axis dropped), takes the nine matrix entries out
  as scalars, forms for each output channel d the plane  (plane₀·w₀d + plane₁·w₁d) + plane₂·w₂d,  gives each plane
  its unit channel axis back and stores it into channel d of the output block: three stores through the three
  column rectangles [32, 512, 1] at channel offsets 0, 1, 2, which tile the block. So entry (p, q, d) of the block
  after the body is the pixel transform `mixAt` of the channels of pixel (p, q): the block is `mixRows` of the loaded block.
-/
import proofs.«102998_j55963423867505_1_alg».proof.Proof.Gen.KernelIdeal.Frame
import proofs.«102998_j55963423867505_1_alg».proof.Proof.PixelMix
import Idealize.ShloMosaic.Lib.Pipeline.Value
import Idealize.ShloMosaic.Lib.ValueIdx

noncomputable section

namespace Cert.KernelIdeal.Hand

open Idealize.ShloMosaic Idealize.ShloMosaic.TcCoe Idealize.SL.Sem Idealize.ShloMosaic.ValueIdx
open Cert.KernelIdeal Cert.KernelIdeal.Gen Cert.PixelMix

/-! ## The layout steps, each read at an index -/

/-- Channel plane k of a block: the slice at channel offset k with its unit axis dropped, at (p, q), is the block's
    entry (p, q, k). -/
theorem plane_apply (x0 : Vec Ideal S32x512x3 .f32) (off : Fin 3 → Nat) (k : Fin 3)
    (hs : S32x512x3.Slices off S32x512x1) (hc : S32x512x1.ShapeCasts S32x512)
    (h0 : off 0 = 0) (h1 : off 1 = 0) (h2 : off 2 = k.val) (p : Fin 32) (q : Fin 512) :
    shapeCast S32x512 (extractStridedSlice S32x512x1 off (k0_pay4 x0) hs) hc (ix2 p q) = x0 (ix3 p q k) := by
  refine (shapeCast_apply _ hc (ix2 p q) (ix3 p q (0 : Fin 1)) (by
    rw [Shape.rowMajor_val_three, Shape.rowMajor_val_two]
    show (p.val * 512 + q.val) * 1 + 0 = p.val * 512 + q.val
    omega)).trans ?_
  refine (extractStridedSlice_apply off _ hs (ix3 p q (0 : Fin 1)) (ix3 p q k) (fun a => ?_)).trans ?_
  · match a with
    | ⟨0, _⟩ => show p.val = off 0 + p.val; omega
    | ⟨1, _⟩ => show q.val = off 1 + q.val; omega
    | ⟨2, _⟩ => show k.val = off 2 + 0; omega
  · unfold k0_pay4
    exact congrFun (shapeCast_self x0 _) _

/-- Matrix entry (a, b) taken out as a scalar: the 1×1 slice at (a, b), read at its one index. -/
theorem entry_apply (x1 : Vec Ideal S3x3 .f32) (off : Fin 2 → Nat) (a b : Fin 3) (hs : S3x3.Slices off S1x1)
    (hp : ∀ a, (![0, 0] : Fin 2 → Nat) a < S1x1.size a) (h0 : off 0 = a.val) (h1 : off 1 = b.val) :
    extractAt ![0, 0] (extractStridedSlice S1x1 off x1 hs) hp = x1 (ix2 a b) := by
  unfold extractAt
  refine extractStridedSlice_apply off x1 hs _ (ix2 a b) (fun c => ?_)
  match c with
  | ⟨0, _⟩ => show a.val = off 0 + 0; omega
  | ⟨1, _⟩ => show b.val = off 1 + 0; omega

/-- A plane given its unit channel axis back, at (p, q, 0), is the plane at (p, q). -/
theorem column_apply (v : FVec Ideal S32x512 .f32) (hc : S32x512.ShapeCasts S32x512x1) (p : Fin 32) (q : Fin 512)
    (u : Fin 1) : shapeCast S32x512x1 v hc (ix3 p q u) = v (ix2 p q) :=
  shapeCast_apply v hc _ _ (by
    rw [Shape.rowMajor_val_three, Shape.rowMajor_val_two]
    show p.val * 512 + q.val = (p.val * 512 + q.val) * 1 + u.val
    omega)

/-- Two products added, then a third: equal factor by factor. -/
theorem chain_congr {a b c d e f a' b' c' d' e' f' : EReal} (ha : a = a') (hb : b = b') (hc : c = c') (hd : d = d')
    (he : e = e') (hf : f = f') : (a * b + c * d) + e * f = (a' * b' + c' * d') + e' * f' := by
  subst ha hb hc hd he hf; rfl

/-! ## The three output planes -/

theorem plane0 (x0 : Vec Ideal S32x512x3 .f32) (p : Fin 32) (q : Fin 512) : k0_pay5 x0 (ix2 p q) = x0 (ix3 p q 0) :=
  plane_apply x0 ![0, 0, 0] 0 _ _ (by decide) (by decide) (by decide) p q
theorem plane1 (x0 : Vec Ideal S32x512x3 .f32) (p : Fin 32) (q : Fin 512) : k0_pay6 x0 (ix2 p q) = x0 (ix3 p q 1) :=
  plane_apply x0 ![0, 0, 1] 1 _ _ (by decide) (by decide) (by decide) p q
theorem plane2 (x0 : Vec Ideal S32x512x3 .f32) (p : Fin 32) (q : Fin 512) : k0_pay7 x0 (ix2 p q) = x0 (ix3 p q 2) :=
  plane_apply x0 ![0, 0, 2] 2 _ _ (by decide) (by decide) (by decide) p q

/-- Output plane 0 at (p, q): pixel (p, q)'s channels against the matrix's column 0. -/
theorem outPlane0 (x0 : Vec Ideal S32x512x3 .f32) (x1 : Vec Ideal S3x3 .f32) (p : Fin 32) (q : Fin 512) :
    k0_pay8 x0 x1 (ix2 p q) = mixAt (fun k => x0 (ix3 p q k)) x1 0 :=
  chain_congr (plane0 x0 p q) (entry_apply x1 ![0, 0] 0 0 _ _ (by decide) (by decide)) (plane1 x0 p q) (entry_apply x1 ![1, 0] 1 0 _ _ (by decide) (by decide))
    (plane2 x0 p q) (entry_apply x1 ![2, 0] 2 0 _ _ (by decide) (by decide))

/-- Output plane 1 at (p, q): against column 1. -/
theorem outPlane1 (x0 : Vec Ideal S32x512x3 .f32) (x1 : Vec Ideal S3x3 .f32) (p : Fin 32) (q : Fin 512) :
    k0_pay9 x0 x1 (ix2 p q) = mixAt (fun k => x0 (ix3 p q k)) x1 1 :=
  chain_congr (plane0 x0 p q) (entry_apply x1 ![0, 1] 0 1 _ _ (by decide) (by decide)) (plane1 x0 p q) (entry_apply x1 ![1, 1] 1 1 _ _ (by decide) (by decide))
    (plane2 x0 p q) (entry_apply x1 ![2, 1] 2 1 _ _ (by decide) (by decide))

/-- Output plane 2 at (p, q): against column 2. -/
theorem outPlane2 (x0 : Vec Ideal S32x512x3 .f32) (x1 : Vec Ideal S3x3 .f32) (p : Fin 32) (q : Fin 512) :
    k0_pay10 x0 x1 (ix2 p q) = mixAt (fun k => x0 (ix3 p q k)) x1 2 :=
  chain_congr (plane0 x0 p q) (entry_apply x1 ![0, 2] 0 2 _ _ (by decide) (by decide)) (plane1 x0 p q) (entry_apply x1 ![1, 2] 1 2 _ _ (by decide) (by decide))
    (plane2 x0 p q) (entry_apply x1 ![2, 2] 2 2 _ _ (by decide) (by decide))

end Cert.KernelIdeal.Hand

end
-- ==== Proof.RowsArray.lean ====
/-
  From blocks to the array: after the region, the array of rows [16384, 512, 3] is the colour transform of the
  rows the region found.

  The grid has 512 points. Point t fetches rows 32t … 32t + 31 of the input (all 512 pixels of each, all three
  channels) and the whole matrix, and writes back rows 32t … 32t + 31 of the output. Its body leaves in the output
  block the transform of the input block (the three column stores tile the block, and each store's plane is the transform's
  plane for its channel). The transform of a pixel reads only that pixel, so the transform of a block of rows is the
  block of the transform of all rows. Every row r lies in the block of point r / 32, so the blocks cover the array.
-/
import proofs.«102998_j55963423867505_1_alg».proof.Proof.BlockMix

set_option maxRecDepth 16384

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen Cert.PixelMix

theorem zeros3 : (![0, 0, 0] : Fin 3 → Nat) = fun _ => 0 := funext fun a => by fin_cases a <;> rfl
theorem zeros2 : (![0, 0] : Fin 2 → Nat) = fun _ => 0 := funext fun a => by fin_cases a <;> rfl

/-- The pixel transform of equal channels under equal matrices. -/
theorem mixAt_congr {x x' : Fin 3 → EReal} {w w' : Mat3.Idx → EReal} (hx : ∀ k, x k = x' k) (hw : w = w') (d : Fin 3) :
    mixAt x w d = mixAt x' w' d := by
  obtain rfl : x = x' := funext hx
  subst hw; rfl

/-! ## The block after the body -/

/-- The output block after the body is the transform of the loaded block of rows under the loaded matrix: at an
    entry of channel d the last store that covers it is the store of plane d, whose value there is the pixel's
    transform at d. -/
theorem block_eq (x0 : Vec Ideal S32x512x3 .f32) (x1 : Vec Ideal S3x3 .f32) : out0_2 x0 x1 = mixRows x0 x1 := by
  funext y
  unfold out0_2
  refine View.canon_apply_of_pieces (Val := Elt Ideal) (mixRows x0 x1 : Vec Ideal S32x512x3 .f32) _ ?_ y (cover0_2 _ _ _ y)
  intro pc hpc x
  simp only [List.mem_cons, List.mem_nil_iff, or_false] at hpc
  rcases hpc with rfl | rfl | rfl
  · obtain ⟨p, q, u, rfl⟩ : ∃ (p : Fin 32) (q : Fin 512) (u : Fin 1), x = ix3 p q u := ⟨x 0, x 1, x 2, eq_ix3 x⟩
    have hu : u.val = 0 := by omega
    have hemb : r0_4.emb (ix3 p q u) = ix3 p q (2 : Fin 3) := by
      funext a; apply Fin.ext
      match a with
      | ⟨0, _⟩ => show 0 + 1 * p.val = p.val; omega
      | ⟨1, _⟩ => show 0 + 1 * q.val = q.val; omega
      | ⟨2, _⟩ => show 2 + 1 * u.val = 2; omega
    show k0_pay3 (k0_pay10 (View.ld x0 r0_0) (View.ld x1 r0_1)) (ix3 p q u) = mixRows x0 x1 (r0_4.emb (ix3 p q u))
    rw [hemb, mixRows_apply, View.ld_unit_zero (S := S32x512x3) zeros3, View.ld_unit_zero (S := S3x3) zeros2]
    exact (column_apply _ _ p q u).trans (outPlane2 x0 x1 p q)
  · obtain ⟨p, q, u, rfl⟩ : ∃ (p : Fin 32) (q : Fin 512) (u : Fin 1), x = ix3 p q u := ⟨x 0, x 1, x 2, eq_ix3 x⟩
    have hu : u.val = 0 := by omega
    have hemb : r0_3.emb (ix3 p q u) = ix3 p q (1 : Fin 3) := by
      funext a; apply Fin.ext
      match a with
      | ⟨0, _⟩ => show 0 + 1 * p.val = p.val; omega
      | ⟨1, _⟩ => show 0 + 1 * q.val = q.val; omega
      | ⟨2, _⟩ => show 1 + 1 * u.val = 1; omega
    show k0_pay2 (k0_pay9 (View.ld x0 r0_0) (View.ld x1 r0_1)) (ix3 p q u) = mixRows x0 x1 (r0_3.emb (ix3 p q u))
    rw [hemb, mixRows_apply, View.ld_unit_zero (S := S32x512x3) zeros3, View.ld_unit_zero (S := S3x3) zeros2]
    exact (column_apply _ _ p q u).trans (outPlane1 x0 x1 p q)
  · obtain ⟨p, q, u, rfl⟩ : ∃ (p : Fin 32) (q : Fin 512) (u : Fin 1), x = ix3 p q u := ⟨x 0, x 1, x 2, eq_ix3 x⟩
    have hu : u.val = 0 := by omega
    have hemb : r0_2.emb (ix3 p q u) = ix3 p q (0 : Fin 3) := by
      funext a; apply Fin.ext
      match a with
      | ⟨0, _⟩ => show 0 + 1 * p.val = p.val; omega
      | ⟨1, _⟩ => show 0 + 1 * q.val = q.val; omega
      | ⟨2, _⟩ => show 0 + 1 * u.val = 0; omega
    show k0_pay1 (k0_pay8 (View.ld x0 r0_0) (View.ld x1 r0_1)) (ix3 p q u) = mixRows x0 x1 (r0_2.emb (ix3 p q u))
    rw [hemb, mixRows_apply, View.ld_unit_zero (S := S32x512x3) zeros3, View.ld_unit_zero (S := S3x3) zeros2]
    exact (column_apply _ _ p q u).trans (outPlane0 x0 x1 p q)

/-! ## The windows' blocks on the grid -/

variable (m : (ℓ : Loc nD τ sig) → Buf (Elt Ideal) ℓ) (ρ : Dev nD → PrngReg)

/-- The printed index maps, decided over the 512 points: the input and output row windows are at block t on the row
    axis and at block 0 on the other two; the matrix window is at block (0, 0). -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0 :=
  (by decide +kernel : ∀ t : Fin grid0.N, _)

theorem point_lt (t : Fin cfg0.N) : t.val < 512 := Nat.lt_of_lt_of_eq t.isLt N_0

/-- The input block at point t, at (p, q, k), is row 32t + p of the rows the region found, at (q, k). -/
theorem rows_block_apply (c : Dev nD) (t : Fin cfg0.N) (p : Fin 32) (q : Fin 512) (k : Fin 3)
    (hr : t.val * 32 + p.val < 16384) :
    (iblk m c 0 t : Vec Ideal S32x512x3 .f32) (ix3 p q k)
      = (V m c main_v0 : Vec Ideal S16384x512x3 .f32) (ix3 ⟨t.val * 32 + p.val, hr⟩ q k) := by
  obtain ⟨a0, a1, a2, -, -, -, -, -⟩ := idx_facts t
  unfold iblk
  rw [View.read_apply]
  show V m c main_v0 _ = V m c main_v0 _
  congr 1
  funext a
  apply Fin.ext
  match a with
  | ⟨0, _⟩ => show win0_0.index t (0 : Fin 3) * 32 + 1 * p.val = t.val * 32 + p.val; rw [a0]; omega
  | ⟨1, _⟩ => show win0_0.index t (1 : Fin 3) * 512 + 1 * q.val = q.val; rw [a1]; omega
  | ⟨2, _⟩ => show win0_0.index t (2 : Fin 3) * 3 + 1 * k.val = k.val; rw [a2]; omega

/-- The matrix block at every point is the matrix. -/
theorem mat_block_eq (c : Dev nD) (t : Fin cfg0.N) :
    (iblk m c 1 t : Vec Ideal S3x3 .f32) = (V m c main_arg1 : Vec Ideal S3x3 .f32) := by
  obtain ⟨-, -, -, b0, b1, -, -, -⟩ := idx_facts t
  funext y
  unfold iblk
  rw [View.read_apply]
  show V m c main_arg1 _ = V m c main_arg1 _
  congr 1
  funext a
  apply Fin.ext
  match a with
  | ⟨0, _⟩ => show win0_1.index t (0 : Fin 2) * 3 + 1 * (y 0).val = (y 0).val; rw [b0]; omega
  | ⟨1, _⟩ => show win0_1.index t (1 : Fin 2) * 3 + 1 * (y 1).val = (y 1).val; rw [b1]; omega

/-! ## What a point writes back, the cover, the array -/

/-- What point t writes back is block t of the transform of all the rows. -/
theorem flushed_eq (c : Dev nD) (t : Fin cfg0.N) :
    (dats m 0 c).flushed 2 t
      = ((cfg0.win 2).blk t).view.read (Elt Ideal) (mixRows (V m c main_v0) (V m c main_arg1)) := by
  show (cfg0.win 2).cut (grid0.coords t) ((dats m 0 c).after 2 t) = _
  rw [after0_2, block_eq]
  obtain ⟨-, -, -, -, -, o0, o1, o2⟩ := idx_facts t
  have ht := point_lt t
  funext j
  obtain ⟨p, q, d, rfl⟩ : ∃ (p : Fin 32) (q : Fin 512) (d : Fin 3), j = ix3 p q d := ⟨j 0, j 1, j 2, eq_ix3 j⟩
  have hr : t.val * 32 + p.val < 16384 := by omega
  have hemb : ((cfg0.win 2).blk t).view.emb (ix3 p q d) = ix3 ⟨t.val * 32 + p.val, hr⟩ q d := by
    funext a
    apply Fin.ext
    match a with
    | ⟨0, _⟩ => show win0_2.index t (0 : Fin 3) * 32 + 1 * p.val = t.val * 32 + p.val; rw [o0]; omega
    | ⟨1, _⟩ => show win0_2.index t (1 : Fin 3) * 512 + 1 * q.val = q.val; rw [o1]; omega
    | ⟨2, _⟩ => show win0_2.index t (2 : Fin 3) * 3 + 1 * d.val = d.val; rw [o2]; omega
  rw [View.read_apply, hemb]
  show mixRows (iblk m c 0 t : Vec Ideal S32x512x3 .f32) (iblk m c 1 t : Vec Ideal S3x3 .f32) (ix3 p q d) = _
  rw [mixRows_apply, mixRows_apply]
  exact mixAt_congr (fun k => rows_block_apply m c t p q k hr) (mat_block_eq m c t) d

/-- An index of the output array is in point t's block iff each coordinate is in the block's range. -/
theorem mem_blk (t : Fin cfg0.N) (i : S16384x512x3.Idx) :
    i ∈ ((cfg0.win 2).blk t).view.set ↔ ∀ a : Fin 3, win0_2.index t a * S32x512x3.size a ≤ (i a).val
      ∧ (i a).val < win0_2.index t a * S32x512x3.size a + S32x512x3.size a := by
  show i ∈ ((View.whole main_v1).slice (win0_2.rect t)).set ↔ _
  rw [View.set_slice_whole, Rect.mem_set_unit]
  exact Iff.rfl

/-- The array of rows after the run: the transform of the rows the region found, under the matrix it found. -/
theorem rows_final (c : Dev nD) :
    (dats m 0 c).arrAt 2 cfg0.N = mixRows (V m c main_v0) (V m c main_arg1) :=
  (dats m 0 c).arrAt_eq_of_cover 2 _ (fun t _ => flushed_eq m c t) fun i => by
    have hi0 : (i 0).val < 16384 := (i 0).isLt
    have hi1 : (i 1).val < 512 := (i 1).isLt
    have hi2 : (i 2).val < 3 := (i 2).isLt
    obtain ⟨t, ht⟩ : ∃ t : Fin cfg0.N, t.val = (i 0).val / 32 :=
      ⟨⟨(i 0).val / 32, by rw [show cfg0.N = 512 from N_0]; omega⟩, rfl⟩
    obtain ⟨-, -, -, -, -, o0, o1, o2⟩ := idx_facts t
    refine ⟨t, flush0_2 t, ?_⟩
    rw [mem_blk]
    intro a
    match a with
    | ⟨0, _⟩ =>
      show win0_2.index t (0 : Fin 3) * 32 ≤ (i 0).val ∧ (i 0).val < win0_2.index t (0 : Fin 3) * 32 + 32
      rw [o0]; omega
    | ⟨1, _⟩ =>
      show win0_2.index t (1 : Fin 3) * 512 ≤ (i 1).val ∧ (i 1).val < win0_2.index t (1 : Fin 3) * 512 + 512
      rw [o1]; omega
    | ⟨2, _⟩ =>
      show win0_2.index t (2 : Fin 3) * 3 ≤ (i 2).val ∧ (i 2).val < win0_2.index t (2 : Fin 3) * 3 + 3
      rw [o2]; omega

end Cert.KernelIdeal.Hand

end
-- ==== Proof.ImageRun.lean ====
/-
  The idealized kernel program's run, read: the result image is the colour transform of the argument image.

  @main reshapes the image [32, 512, 512, 3] to rows [16384, 512, 3], runs the region on the rows, and reshapes the
  rows it wrote back to an image. The region leaves the transform of the rows it found (the array after the run,
  block by block); the rows it found are the image reshaped; the matrix it found is the argument. A row-major reshape
  keeps each pixel's channels together, so the image that comes out is the transform of the image that went in.
-/
import proofs.«102998_j55963423867505_1_alg».proof.Proof.RowsArray
import Idealize.ShloMosaic.Lib.StableHlo.Run

noncomputable section

namespace Cert.KernelIdeal.Hand

open Idealize.ShloMosaic Idealize.ShloMosaic.TcCoe Idealize.SL.Sem Idealize.ShloMosaic.ValueIdx
open Idealize.ShloMosaic.StableHlo
open Idealize.ShloMosaic.Pipeline (Dat)
open Cert.KernelIdeal Cert.KernelIdeal.Gen Cert.PixelMix

variable (m : (ℓ : Loc nD τ sig) → Buf (Elt Ideal) ℓ) (ρ : Dev nD → PrngReg)

/-- The rows the region finds are the argument image, reshaped. -/
theorem rows_found (c : Dev nD) :
    (V m c main_v0 : Vec Ideal S16384x512x3 .f32)
      = shapeCast S16384x512x3 (m ((c : Thread nD τ).loc main_arg0) : Vec Ideal S32x512x512x3 .f32)
          Gen.shapeCasts_S32x512x512x3_S16384x512x3 := by
  show StableHlo.after hostOps0 (fun b => m (c, b)) (Proc.devRef .tc main_v0) = _
  after_results
  rfl

/-- The result image is the rows the region wrote, reshaped. -/
theorem image_of_rows (c : Dev nD) :
    (Pipeline.afterTail₀ cfgs (dats m) 0 (V0 m) [hostOps1] c main_v2 : Vec Ideal S32x512x512x3 .f32)
      = shapeCast S32x512x512x3 ((dats m 0 c).arrAt 2 cfg0.N : Vec Ideal S16384x512x3 .f32)
          Gen.shapeCasts_S16384x512x3_S32x512x512x3 := by
  unfold Pipeline.afterTail₀
  show StableHlo.after hostOps1 _ (Proc.devRef .tc main_v2) = _
  after_results
  have e := Pipeline.withArrays_arr spec0 launch0.win.arr_inj c (V0 m c) (fun w => (dats m 0 c).arrAt w cfg0.N) 2
  exact congrArg (fun v : Vec Ideal S16384x512x3 .f32 =>
    shapeCast S32x512x512x3 v Gen.shapeCasts_S16384x512x3_S32x512x512x3) e

/-- The result image is the transform of the argument image under the argument matrix. -/
theorem image_value (c : Dev nD) :
    (Pipeline.afterTail₀ cfgs (dats m) 0 (V0 m) [hostOps1] c main_v2 : Vec Ideal S32x512x512x3 .f32)
      = mixImage (m ((c : Thread nD τ).loc main_arg0)) (m ((c : Thread nD τ).loc main_arg1)) := by
  rw [image_of_rows, rows_final, rows_found, V_main_arg1]
  exact reshape_mixRows _ _ _ _

/-- The run: every weakly fair execution ends with the result image at the transform of the arguments, and the
    arguments as launched. -/
theorem run : θ_run defs (onTc (τ := τ) (main (F := Ideal))) ⟨m, fun _ => 0, ρ⟩ fun r => ∀ c : Dev nD,
      r.2.mem ((c.tc : Thread nD τ).loc main_v2)
        = mixImage (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v2 (Pipeline.mem_restRefs_of main_v2 (by decide) (by decide))).trans (image_value m c),
     ((h c).2 main_arg0 (Pipeline.mem_restRefs_of main_arg0 (by decide) (by decide))).trans (W_main_arg0 m (dats m) c),
     ((h c).1 1).trans (((dats m 0 c).arrAt_in 1 rfl _).trans ((A_eq m c 1).trans (V_main_arg1 m c)))⟩)
    (run_main m ρ)

end Cert.KernelIdeal.Hand

end
-- ==== Proof.RefImage.lean ====
/-
  The idealized reference's result is the same function of the arguments: its one operation contracts the channel
  axis of the image against the matrix's first axis, so entry (b, h, c, d) is the sum over k of
  image (b, h, c, k) · matrix (k, d): the pixel transform written as a sum.
-/
import proofs.«102998_j55963423867505_1_alg».proof.Proof.Gen.ReferenceIdeal.Read
import proofs.«102998_j55963423867505_1_alg».proof.Proof.PixelMix

noncomputable section

namespace Cert.ReferenceIdeal.Hand

open Idealize.ShloMosaic Idealize.ShloMosaic.TcCoe Idealize.SL.Sem Idealize.ShloMosaic.ValueIdx
open Cert.ReferenceIdeal Cert.ReferenceIdeal.Read Cert.PixelMix

/-- The contraction, entry by entry, is the transform of the image. -/
theorem contraction_eq (x : Vec Ideal S32x512x512x3 .f32) (w : Vec Ideal S3x3 .f32) :
    val_main_v0 (F := Ideal) x w = mixImage x w := by
  funext i
  obtain ⟨b, h, c, d, rfl⟩ : ∃ (b : Fin 32) (h : Fin 512) (c : Fin 512) (d : Fin 3), i = ix4 b h c d :=
    ⟨i 0, i 1, i 2, i 3, eq_ix4 i⟩
  rw [val_main_v0_apply, mixImage_apply, mixAt_eq_sum]
  refine Finset.sum_congr rfl fun k _ => ?_
  exact congrArg₂ (· * ·)
    (congrArg x (funext fun a => by
      match a with
      | ⟨0, _⟩ => rfl
      | ⟨1, _⟩ => rfl
      | ⟨2, _⟩ => rfl
      | ⟨3, _⟩ => rfl))
    (congrArg w (funext fun a => by
      match a with
      | ⟨0, _⟩ => rfl
      | ⟨1, _⟩ => rfl))

end Cert.ReferenceIdeal.Hand

end
-- ==== Proof.lean ====
/-
  A per-pixel colour transform: every pixel's three channels (x₀, x₁, x₂) are multiplied by a 3×3 matrix w, output
  channel d being x₀·w₀d + x₁·w₁d + x₂·w₂d, over an image [32, 512, 512, 3].

  The kernel reads the image as 16384 rows of 512 pixels and walks them 32 rows at a time; at each step it forms the
  three output channel planes as (plane₀·w₀d + plane₁·w₁d) + plane₂·w₂d and stores them side by side. The reference
  contracts the channel axis against the matrix's first axis, a sum over k of x_k·w_kd. On the extended reals addition
  is associative and commutative at every value, so the three-term sum is the chain of two additions: the two results are
  equal entry by entry, for every input (the precondition is not used).

  The pieces: Proof/PixelMix.lean states the transform as one function (of a pixel, of rows, of the image) and proves the
  sum form and that reshaping image ↔ rows commutes with it; Proof/BlockMix.lean and Proof/RowsArray.lean read the body's
  three stores as the transform of the loaded block and assemble the blocks into the array; Proof/ImageRun.lean reads the
  reshapes around the region and states the run; Proof/RefImage.lean reads the reference's contraction entry by entry.
  The ideal pass rewrote nothing, so the idealized kernel is the kernel's own text and `preserves` has no conjunct.
-/
import proofs.«102998_j55963423867505_1_alg».proof.Defs
import proofs.«102998_j55963423867505_1_alg».proof.Proof.Gen.Kernel
import proofs.«102998_j55963423867505_1_alg».proof.Proof.Gen.Kernel.Frame
import proofs.«102998_j55963423867505_1_alg».proof.Proof.Gen.KernelIdeal
import proofs.«102998_j55963423867505_1_alg».proof.Proof.Gen.KernelIdeal.Frame
import proofs.«102998_j55963423867505_1_alg».proof.Proof.Gen.ReferenceIdeal
import proofs.«102998_j55963423867505_1_alg».proof.Proof.Gen.Pre_finite_inputs
import proofs.«102998_j55963423867505_1_alg».proof.Proof.Gen.ReferenceIdeal.Run
import proofs.«102998_j55963423867505_1_alg».proof.Proof.Gen.ReferenceIdeal.Read
import proofs.«102998_j55963423867505_1_alg».proof.Proof.ImageRun
import proofs.«102998_j55963423867505_1_alg».proof.Proof.RefImage
import Idealize.ShloMosaic.Adequacy
import Idealize.ShloMosaic.Init

noncomputable section

namespace Cert.Proof

open Idealize.ShloMosaic Idealize.SL.Sem

/-- The word-level kernel runs, faults nowhere and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is one host operation: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both idealized programs end with the result image at the colour transform of the arguments: the kernel by its run
    read block by block, the reference by its contraction read entry by entry as the same three-term sum. -/
theorem algebraic : Cert.algebraic_KernelIdeal_ReferenceIdeal := by
  intro m ρ m' ρ' _ hagree
  refine ⟨fun c => Cert.PixelMix.mixImage
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact Cert.ReferenceIdeal.Hand.contraction_eq _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
